-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32x64x64 : Shape := ⟨4, ![128, 32, 64, 64]⟩
abbrev S128x32x1x64 : Shape := ⟨4, ![128, 32, 1, 64]⟩
abbrev S128x32x1x1 : Shape := ⟨4, ![128, 32, 1, 1]⟩
abbrev S_ : Shape := ⟨0, ![]⟩

class Facts : Prop where
  bcast_S_S128x32x64x64 : S_.BroadcastsInDim S128x32x64x64 (![] : Fin 0 → Fin S128x32x64x64.rank)
  reducesTo_S128x32x64x64_S_d0_1_2_3 : S128x32x64x64.ReducesTo [0, 1, 2, 3] S_
  h_S_ : 0 < S_.numel
  bcast_S_S128x32x1x64 : S_.BroadcastsInDim S128x32x1x64 (![] : Fin 0 → Fin S128x32x1x64.rank)
  reducesTo_S128x32x1x64_S_d0_1_2_3 : S128x32x1x64.ReducesTo [0, 1, 2, 3] S_
  bcast_S_S128x32x1x1 : S_.BroadcastsInDim S128x32x1x1 (![] : Fin 0 → Fin S128x32x1x1.rank)
  reducesTo_S128x32x1x1_S_d0_1_2_3 : S128x32x1x1.ReducesTo [0, 1, 2, 3] S_

variable [Facts]

def fn_part1 {F : FTy → Type} [FloatOps F] (main_arg4 : FVec F S128x32x1x64 .f32) (main_arg5 : FVec F S128x32x1x1 .f32) (main_v13 : IVec S_ 1) (main_v16 : IVec S128x32x1x64 1) : IVec S_ 1 :=
  let main_c_5 : IVec S_ 1 := constantI S_ 1 1#1
  let main_v17 : IVec S_ 1 := (fun x v => Host.reduce IntOp.andi x v reducesTo_S128x32x1x64_S_d0_1_2_3 h_S_) main_v16 main_c_5
  let main_v18 : IVec S_ 1 := andi main_v13 main_v17
  let main_v19 : FVec F S128x32x1x64 .f32 := Host.absf main_arg4
  let main_cst_6 : FVec F S_ .f32 := constant S_ .f32 0x7F800000#32
  let main_v20 : FVec F S128x32x1x64 .f32 := broadcastInDim S128x32x1x64 ![] bcast_S_S128x32x1x64 main_cst_6
  let main_v21 : IVec S128x32x1x64 1 := cmpf .olt main_v19 main_v20
  let main_c_7 : IVec S_ 1 := constantI S_ 1 1#1
  let main_v22 : IVec S_ 1 := (fun x v => Host.reduce IntOp.andi x v reducesTo_S128x32x1x64_S_d0_1_2_3 h_S_) main_v21 main_c_7
  let main_v23 : IVec S_ 1 := andi main_v18 main_v22
  let main_v24 : FVec F S128x32x1x1 .f32 := Host.absf main_arg5
  let main_cst_8 : FVec F S_ .f32 := constant S_ .f32 0x7F800000#32
  let main_v25 : FVec F S128x32x1x1 .f32 := broadcastInDim S128x32x1x1 ![] bcast_S_S128x32x1x1 main_cst_8
  let main_v26 : IVec S128x32x1x1 1 := cmpf .olt main_v24 main_v25
  let main_c_9 : IVec S_ 1 := constantI S_ 1 1#1
  let main_v27 : IVec S_ 1 := (fun x v => Host.reduce IntOp.andi x v reducesTo_S128x32x1x1_S_d0_1_2_3 h_S_) main_v26 main_c_9
  let main_v28 : IVec S_ 1 := andi main_v23 main_v27
  main_v28

def fn {F : FTy → Type} [FloatOps F] (main_arg0 : FVec F S128x32x64x64 .f32) (main_arg1 : FVec F S128x32x64x64 .f32) (main_arg2 : FVec F S128x32x1x64 .f32) (main_arg3 : FVec F S128x32x1x64 .f32) (main_arg4 : FVec F S128x32x1x64 .f32) (main_arg5 : FVec F S128x32x1x1 .f32) : IVec S_ 1 :=
  let main_v0 : FVec F S128x32x64x64 .f32 := Host.absf main_arg0
  let main_cst : FVec F S_ .f32 := constant S_ .f32 0x7F800000#32
  let main_v1 : FVec F S128x32x64x64 .f32 := broadcastInDim S128x32x64x64 ![] bcast_S_S128x32x64x64 main_cst
  let main_v2 : IVec S128x32x64x64 1 := cmpf .olt main_v0 main_v1
  let main_c : IVec S_ 1 := constantI S_ 1 1#1
  let main_v3 : IVec S_ 1 := (fun x v => Host.reduce IntOp.andi x v reducesTo_S128x32x64x64_S_d0_1_2_3 h_S_) main_v2 main_c
  let main_v4 : FVec F S128x32x64x64 .f32 := Host.absf main_arg1
  let main_cst_0 : FVec F S_ .f32 := constant S_ .f32 0x7F800000#32
  let main_v5 : FVec F S128x32x64x64 .f32 := broadcastInDim S128x32x64x64 ![] bcast_S_S128x32x64x64 main_cst_0
  let main_v6 : IVec S128x32x64x64 1 := cmpf .olt main_v4 main_v5
  let main_c_1 : IVec S_ 1 := constantI S_ 1 1#1
  let main_v7 : IVec S_ 1 := (fun x v => Host.reduce IntOp.andi x v reducesTo_S128x32x64x64_S_d0_1_2_3 h_S_) main_v6 main_c_1
  let main_v8 : IVec S_ 1 := andi main_v3 main_v7
  let main_v9 : FVec F S128x32x1x64 .f32 := Host.absf main_arg2
  let main_cst_2 : FVec F S_ .f32 := constant S_ .f32 0x7F800000#32
  let main_v10 : FVec F S128x32x1x64 .f32 := broadcastInDim S128x32x1x64 ![] bcast_S_S128x32x1x64 main_cst_2
  let main_v11 : IVec S128x32x1x64 1 := cmpf .olt main_v9 main_v10
  let main_c_3 : IVec S_ 1 := constantI S_ 1 1#1
  let main_v12 : IVec S_ 1 := (fun x v => Host.reduce IntOp.andi x v reducesTo_S128x32x1x64_S_d0_1_2_3 h_S_) main_v11 main_c_3
  let main_v13 : IVec S_ 1 := andi main_v8 main_v12
  let main_v14 : FVec F S128x32x1x64 .f32 := Host.absf main_arg3
  let main_cst_4 : FVec F S_ .f32 := constant S_ .f32 0x7F800000#32
  let main_v15 : FVec F S128x32x1x64 .f32 := broadcastInDim S128x32x1x64 ![] bcast_S_S128x32x1x64 main_cst_4
  let main_v16 : IVec S128x32x1x64 1 := cmpf .olt main_v14 main_v15
  fn_part1 (F := F) main_arg4 main_arg5 main_v13 main_v16
-- ==== Kernel.lean ====
abbrev S128x32x64x64 : Shape := ⟨4, ![128, 32, 64, 64]⟩
abbrev S128x32x1x64 : Shape := ⟨4, ![128, 32, 1, 64]⟩
abbrev S128x32x1x1 : Shape := ⟨4, ![128, 32, 1, 1]⟩
abbrev S4096x64x64 : Shape := ⟨3, ![4096, 64, 64]⟩
abbrev S4096x1x64 : Shape := ⟨3, ![4096, 1, 64]⟩
abbrev S4096x1x1 : Shape := ⟨3, ![4096, 1, 1]⟩
abbrev S128x64x64 : Shape := ⟨3, ![128, 64, 64]⟩
abbrev S128x1x64 : Shape := ⟨3, ![128, 1, 64]⟩
abbrev S128x1x1 : Shape := ⟨3, ![128, 1, 1]⟩
abbrev S128x64 : Shape := ⟨2, ![128, 64]⟩
abbrev S128x64x1 : Shape := ⟨3, ![128, 64, 1]⟩

abbrev nBuf : Space → Nat
  | .hbm => 18
  | .vmem => 18
  | .smem => 0
  | _ => 0

abbrev bufTy : (tb : Table) → Fin (tcTables nBuf tb) → BufTy
  | .hbm, ⟨0, _⟩ => ⟨S128x32x64x64, .f32⟩
  | .hbm, ⟨1, _⟩ => ⟨S128x32x64x64, .f32⟩
  | .hbm, ⟨2, _⟩ => ⟨S128x32x1x64, .f32⟩
  | .hbm, ⟨3, _⟩ => ⟨S128x32x1x64, .f32⟩
  | .hbm, ⟨4, _⟩ => ⟨S128x32x1x64, .f32⟩
  | .hbm, ⟨5, _⟩ => ⟨S128x32x1x1, .f32⟩
  | .hbm, ⟨6, _⟩ => ⟨S4096x64x64, .f32⟩
  | .hbm, ⟨7, _⟩ => ⟨S4096x64x64, .f32⟩
  | .hbm, ⟨8, _⟩ => ⟨S4096x1x64, .f32⟩
  | .hbm, ⟨9, _⟩ => ⟨S4096x1x64, .f32⟩
  | .hbm, ⟨10, _⟩ => ⟨S4096x1x64, .f32⟩
  | .hbm, ⟨11, _⟩ => ⟨S4096x1x1, .f32⟩
  | .hbm, ⟨12, _⟩ => ⟨S4096x1x64, .f32⟩
  | .hbm, ⟨13, _⟩ => ⟨S4096x64x64, .f32⟩
  | .hbm, ⟨14, _⟩ => ⟨S4096x64x64, .f32⟩
  | .hbm, ⟨15, _⟩ => ⟨S128x32x1x64, .f32⟩
  | .hbm, ⟨16, _⟩ => ⟨S128x32x64x64, .f32⟩
  | .hbm, ⟨17, _⟩ => ⟨S128x32x64x64, .f32⟩
  | .local _ .vmem, ⟨0, _⟩ => ⟨S128x64x64, .f32⟩
  | .local _ .vmem, ⟨1, _⟩ => ⟨S128x64x64, .f32⟩
  | .local _ .vmem, ⟨2, _⟩ => ⟨S128x64x64, .f32⟩
  | .local _ .vmem, ⟨3, _⟩ => ⟨S128x64x64, .f32⟩
  | .local _ .vmem, ⟨4, _⟩ => ⟨S128x1x64, .f32⟩
  | .local _ .vmem, ⟨5, _⟩ => ⟨S128x1x64, .f32⟩
  | .local _ .vmem, ⟨6, _⟩ => ⟨S128x1x64, .f32⟩
  | .local _ .vmem, ⟨7, _⟩ => ⟨S128x1x64, .f32⟩
  | .local _ .vmem, ⟨8, _⟩ => ⟨S128x1x64, .f32⟩
  | .local _ .vmem, ⟨9, _⟩ => ⟨S128x1x64, .f32⟩
  | .local _ .vmem, ⟨10, _⟩ => ⟨S128x1x1, .f32⟩
  | .local _ .vmem, ⟨11, _⟩ => ⟨S128x1x1, .f32⟩
  | .local _ .vmem, ⟨12, _⟩ => ⟨S128x1x64, .f32⟩
  | .local _ .vmem, ⟨13, _⟩ => ⟨S128x1x64, .f32⟩
  | .local _ .vmem, ⟨14, _⟩ => ⟨S128x64x64, .f32⟩
  | .local _ .vmem, ⟨15, _⟩ => ⟨S128x64x64, .f32⟩
  | .local _ .vmem, ⟨16, _⟩ => ⟨S128x64x64, .f32⟩
  | .local _ .vmem, ⟨17, _⟩ => ⟨S128x64x64, .f32⟩
  | _, _ => ⟨S128x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S128x32x64x64_S4096x64x64 : S128x32x64x64.ShapeCasts S4096x64x64
  shapeCasts_S128x32x1x64_S4096x1x64 : S128x32x1x64.ShapeCasts S4096x1x64
  shapeCasts_S128x32x1x1_S4096x1x1 : S128x32x1x1.ShapeCasts S4096x1x1
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  inb_S128x1x64_S128x1x64_0_0_0 : ∀ a, (![0, 0, 0] : Fin 3 → Nat) a + S128x1x64.size a ≤ S128x1x64.size a
  h_S128x1x64 : 0 < S128x1x64.numel
  shapeCasts_S128x1x64_S128x1x64 : S128x1x64.ShapeCasts S128x1x64
  inb_S128x1x1_S128x1x1_0_0_0 : ∀ a, (![0, 0, 0] : Fin 3 → Nat) a + S128x1x1.size a ≤ S128x1x1.size a
  h_S128x1x1 : 0 < S128x1x1.numel
  shapeCasts_S128x1x1_S128x1x1 : S128x1x1.ShapeCasts S128x1x1
  bitsLt_bf16_f32 : FTy.bits .bf16 < FTy.bits .f32
  shapeCasts_S128x1x64_S128x64 : S128x1x64.ShapeCasts S128x64
  shapeCasts_S128x64_S128x64x1 : S128x64.ShapeCasts S128x64x1
  shapeCasts_S128x64_S128x1x64 : S128x64.ShapeCasts S128x1x64
  broadcasts_S128x64x1_S128x64x64 : S128x64x1.Broadcasts S128x64x64
  broadcasts_S128x1x64_S128x64x64 : S128x1x64.Broadcasts S128x64x64
  broadcasts_S128x1x1_S128x64x64 : S128x1x1.Broadcasts S128x64x64
  shapeCasts_S4096x1x64_S128x32x1x64 : S4096x1x64.ShapeCasts S128x32x1x64
  shapeCasts_S4096x64x64_S128x32x64x64 : S4096x64x64.ShapeCasts S128x32x64x64
  dot_S128x1x64_S128x64x64_S128x1x64_2_1_1_2_0_0_wf : DotDims.WF S128x1x64 S128x64x64 S128x1x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S4096x64x64.size a
  hwx0_0 : ∀ i : grid0.Coords, EltTy.bits .f32 = 32 ∨ (Rect.block (s := S4096x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S4096x64x64.size a
  hwx0_1 : ∀ i : grid0.Coords, EltTy.bits .f32 = 32 ∨ (Rect.block (s := S4096x64x64) S128x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1x64.size a ≤ S4096x1x64.size a
  hwx0_2 : ∀ i : grid0.Coords, EltTy.bits .f32 = 32 ∨ (Rect.block (s := S4096x1x64) S128x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1x64.size a ≤ S4096x1x64.size a
  hwx0_3 : ∀ i : grid0.Coords, EltTy.bits .f32 = 32 ∨ (Rect.block (s := S4096x1x64) S128x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1x64.size a ≤ S4096x1x64.size a
  hwx0_4 : ∀ i : grid0.Coords, EltTy.bits .f32 = 32 ∨ (Rect.block (s := S4096x1x64) S128x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1x1.size a ≤ S4096x1x1.size a
  hwx0_5 : ∀ i : grid0.Coords, EltTy.bits .f32 = 32 ∨ (Rect.block (s := S4096x1x1) S128x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1x64.size a ≤ S4096x1x64.size a
  hwx0_6 : ∀ i : grid0.Coords, EltTy.bits .f32 = 32 ∨ (Rect.block (s := S4096x1x64) S128x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x64x64.size a ≤ S4096x64x64.size a
  hwx0_7 : ∀ i : grid0.Coords, EltTy.bits .f32 = 32 ∨ (Rect.block (s := S4096x64x64) S128x64x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x64x64.size a ≤ S4096x64x64.size a
  hwx0_8 : ∀ i : grid0.Coords, EltTy.bits .f32 = 32 ∨ (Rect.block (s := S4096x64x64) S128x64x64.size (cc0_transform_8 i) (hinb0_8 i)).WholeWords (EltTy.packing .f32)

variable [Facts₀]

def dot_S128x1x64_S128x64x64_S128x1x64_2_1_1_2_0_0 : DotDims S128x1x64 S128x64x64 S128x1x64 where
  lhsContracting := [2]
  rhsContracting := [1]
  lhsNonContracting := [1]
  rhsNonContracting := [2]
  lhsBatch := [0]
  rhsBatch := [0]
  wf := dot_S128x1x64_S128x64x64_S128x1x64_2_1_1_2_0_0_wf

abbrev win0_0 : Pipeline.Window sig grid0 :=
  Pipeline.Window.ofSpec (Memref.whole main_v0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x1x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S128x1x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S128x64x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S128x64x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S128x32x64x64 : Shape := ⟨4, ![128, 32, 64, 64]⟩
abbrev S128x32x1x64 : Shape := ⟨4, ![128, 32, 1, 64]⟩
abbrev S128x32x1x1 : Shape := ⟨4, ![128, 32, 1, 1]⟩

abbrev nBuf : Space → Nat
  | .hbm => 14
  | .vmem => 0
  | .smem => 0
  | _ => 0

abbrev bufTy : (tb : Table) → Fin (tcTables nBuf tb) → BufTy
  | .hbm, ⟨0, _⟩ => ⟨S128x32x64x64, .f32⟩
  | .hbm, ⟨1, _⟩ => ⟨S128x32x64x64, .f32⟩
  | .hbm, ⟨2, _⟩ => ⟨S128x32x1x64, .f32⟩
  | .hbm, ⟨3, _⟩ => ⟨S128x32x1x64, .f32⟩
  | .hbm, ⟨4, _⟩ => ⟨S128x32x1x64, .f32⟩
  | .hbm, ⟨5, _⟩ => ⟨S128x32x1x1, .f32⟩
  | .hbm, ⟨6, _⟩ => ⟨S128x32x1x64, .f32⟩
  | .hbm, ⟨7, _⟩ => ⟨S128x32x1x64, .f32⟩
  | .hbm, ⟨8, _⟩ => ⟨S128x32x64x64, .f32⟩
  | .hbm, ⟨9, _⟩ => ⟨S128x32x64x64, .f32⟩
  | .hbm, ⟨10, _⟩ => ⟨S128x32x64x64, .f32⟩
  | .hbm, ⟨11, _⟩ => ⟨S128x32x64x64, .f32⟩
  | .hbm, ⟨12, _⟩ => ⟨S128x32x64x64, .f32⟩
  | .hbm, ⟨13, _⟩ => ⟨S128x32x1x64, .f32⟩
  | _, _ => ⟨S128x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S128x32x1x1_S128x32x64x64_0_1_2_3 : S128x32x1x1.BroadcastsInDim S128x32x64x64 (![0, 1, 2, 3] : Fin 4 → Fin S128x32x64x64.rank)
  dot_S128x32x1x64_S128x32x64x64_S128x32x1x64_3_2_2_3_01_01_wf : DotDims.WF S128x32x1x64 S128x32x64x64 S128x32x1x64 [3] [2] [2] [3] [0, 1] [0, 1]
  dot_S128x32x1x64_S128x32x1x64_S128x32x64x64_2_2_3_3_01_01_wf : DotDims.WF S128x32x1x64 S128x32x1x64 S128x32x64x64 [2] [2] [3] [3] [0, 1] [0, 1]

variable [Facts₀]

def dot_S128x32x1x64_S128x32x64x64_S128x32x1x64_3_2_2_3_01_01 : DotDims S128x32x1x64 S128x32x64x64 S128x32x1x64 where
  lhsContracting := [3]
  rhsContracting := [2]
  lhsNonContracting := [2]
  rhsNonContracting := [3]
  lhsBatch := [0, 1]
  rhsBatch := [0, 1]
  wf := dot_S128x32x1x64_S128x32x64x64_S128x32x1x64_3_2_2_3_01_01_wf
def dot_S128x32x1x64_S128x32x1x64_S128x32x64x64_2_2_3_3_01_01 : DotDims S128x32x1x64 S128x32x1x64 S128x32x64x64 where
  lhsContracting := [2]
  rhsContracting := [2]
  lhsNonContracting := [3]
  rhsNonContracting := [3]
  lhsBatch := [0, 1]
  rhsBatch := [0, 1]
  wf := dot_S128x32x1x64_S128x32x1x64_S128x32x64x64_2_2_3_3_01_01_wf

class Facts : Prop extends Facts₀ where

variable [Facts]
-- ==== Proof.FastWeightStep.lean ====
/-
  One test-time-training step on the fast weights of ONE head, over the extended reals.

  A head carries a 64 × 64 weight matrix `W`, an accumulated gradient `G` of the same size, three rows
  `xa`, `xb`, `xc` of length 64 and a step size `η`. The step is
      z d     = (Σ_k xb k · W k d) − xa d          the prediction error of the inner model,
      G' f d  = G f d + xb f · z d                   the gradient, accumulated by the outer product xbᵀ z,
      W' f d  = W f d − η · G' f d                   one descent step on the fast weights,
      o d     = Σ_k xc k · W' k d                    the updated weights queried with xc.
  Both programs compute exactly these four expressions, in this order and with this grouping, so no law of
  the extended reals beyond "a sum over one term is that term" is ever needed, and finiteness of the inputs
  is not used.

  The stacked forms below read a head's slices out of the arrays the two programs hold: the reference keeps
  the batch and the head as two axes ([128, 32, …]), the kernel as one ([4096, …]), head `(b, h)` being
  row `32·b + h`.
-/
import Idealize.ShloMosaic.PureOps.Ideal
import Idealize.ShloMosaic.Lib.ValueIdx

noncomputable section

namespace Cert.FastWeight

open Idealize.ShloMosaic Idealize.ShloMosaic.ValueIdx
open scoped BigOperators

/-! ## One head -/

/-- The prediction error `z d = (Σ_k xb k · W k d) − xa d`. -/
def predErr (W : Fin 64 → Fin 64 → EReal) (xa xb : Fin 64 → EReal) (d : Fin 64) : EReal :=
  (∑ k : Fin 64, xb k * W k d) - xa d

/-- The accumulated gradient `G' f d = G f d + xb f · z d`. -/
def gradNew (G W : Fin 64 → Fin 64 → EReal) (xa xb : Fin 64 → EReal) (f d : Fin 64) : EReal :=
  G f d + xb f * predErr W xa xb d

/-- The updated weights `W' f d = W f d − η · G' f d`. -/
def weightNew (η : EReal) (G W : Fin 64 → Fin 64 → EReal) (xa xb : Fin 64 → EReal) (f d : Fin 64) : EReal :=
  W f d - η * gradNew G W xa xb f d

/-- The readout `o d = Σ_k xc k · W' k d`. -/
def readout (η : EReal) (G W : Fin 64 → Fin 64 → EReal) (xa xb xc : Fin 64 → EReal) (d : Fin 64) : EReal :=
  ∑ k : Fin 64, xc k * weightNew η G W xa xb k d

/-! ## Heads stacked along ONE axis of extent `N` (the kernel's arrays, `N = 4096`, and its blocks, `N = 128`) -/

section Stacked
variable {N : Nat}

/-- Head `n`'s matrix in a stack of matrices. -/
abbrev mat3 (A : (⟨3, ![N, 64, 64]⟩ : Shape).Idx → EReal) (n : Fin N) : Fin 64 → Fin 64 → EReal :=
  fun f d => A (ix3 n f d)
/-- Head `n`'s row in a stack of single rows. -/
abbrev row3 (X : (⟨3, ![N, 1, 64]⟩ : Shape).Idx → EReal) (n : Fin N) : Fin 64 → EReal :=
  fun d => X (ix3 n (0 : Fin 1) d)
/-- Head `n`'s step size in a stack of scalars. -/
abbrev eta3 (C : (⟨3, ![N, 1, 1]⟩ : Shape).Idx → EReal) (n : Fin N) : EReal :=
  C (ix3 n (0 : Fin 1) (0 : Fin 1))

/-- The stack of accumulated gradients. -/
def gradStack (W G : (⟨3, ![N, 64, 64]⟩ : Shape).Idx → EReal) (XA XB : (⟨3, ![N, 1, 64]⟩ : Shape).Idx → EReal)
    (n : Fin N) (f d : Fin 64) : EReal :=
  gradNew (mat3 G n) (mat3 W n) (row3 XA n) (row3 XB n) f d

/-- The stack of updated weights. -/
def weightStack (W G : (⟨3, ![N, 64, 64]⟩ : Shape).Idx → EReal) (XA XB : (⟨3, ![N, 1, 64]⟩ : Shape).Idx → EReal)
    (C : (⟨3, ![N, 1, 1]⟩ : Shape).Idx → EReal) (n : Fin N) (f d : Fin 64) : EReal :=
  weightNew (eta3 C n) (mat3 G n) (mat3 W n) (row3 XA n) (row3 XB n) f d

/-- The stack of readouts. -/
def readoutStack (W G : (⟨3, ![N, 64, 64]⟩ : Shape).Idx → EReal) (XA XB XC : (⟨3, ![N, 1, 64]⟩ : Shape).Idx → EReal)
    (C : (⟨3, ![N, 1, 1]⟩ : Shape).Idx → EReal) (n : Fin N) (d : Fin 64) : EReal :=
  readout (eta3 C n) (mat3 G n) (mat3 W n) (row3 XA n) (row3 XB n) (row3 XC n) d

end Stacked

/-! ## Heads laid out as batch × head (the arguments and the results of both programs) -/

/-- Head `(b, h)`'s matrix. -/
abbrev mat4 (A : (⟨4, ![128, 32, 64, 64]⟩ : Shape).Idx → EReal) (b : Fin 128) (h : Fin 32) : Fin 64 → Fin 64 → EReal :=
  fun f d => A (ix4 b h f d)
/-- Head `(b, h)`'s row. -/
abbrev row4 (X : (⟨4, ![128, 32, 1, 64]⟩ : Shape).Idx → EReal) (b : Fin 128) (h : Fin 32) : Fin 64 → EReal :=
  fun d => X (ix4 b h (0 : Fin 1) d)
/-- Head `(b, h)`'s step size. -/
abbrev eta4 (C : (⟨4, ![128, 32, 1, 1]⟩ : Shape).Idx → EReal) (b : Fin 128) (h : Fin 32) : EReal :=
  C (ix4 b h (0 : Fin 1) (0 : Fin 1))

/-- The accumulated gradients, every head. -/
def gradAll (W G : (⟨4, ![128, 32, 64, 64]⟩ : Shape).Idx → EReal) (XA XB : (⟨4, ![128, 32, 1, 64]⟩ : Shape).Idx → EReal) :
    (⟨4, ![128, 32, 64, 64]⟩ : Shape).Idx → EReal :=
  fun i => gradNew (mat4 G (i 0) (i 1)) (mat4 W (i 0) (i 1)) (row4 XA (i 0) (i 1)) (row4 XB (i 0) (i 1)) (i 2) (i 3)

/-- The updated weights, every head. -/
def weightAll (W G : (⟨4, ![128, 32, 64, 64]⟩ : Shape).Idx → EReal) (XA XB : (⟨4, ![128, 32, 1, 64]⟩ : Shape).Idx → EReal)
    (C : (⟨4, ![128, 32, 1, 1]⟩ : Shape).Idx → EReal) : (⟨4, ![128, 32, 64, 64]⟩ : Shape).Idx → EReal :=
  fun i => weightNew (eta4 C (i 0) (i 1)) (mat4 G (i 0) (i 1)) (mat4 W (i 0) (i 1)) (row4 XA (i 0) (i 1)) (row4 XB (i 0) (i 1)) (i 2) (i 3)

/-- The readouts, every head. -/
def readoutAll (W G : (⟨4, ![128, 32, 64, 64]⟩ : Shape).Idx → EReal) (XA XB XC : (⟨4, ![128, 32, 1, 64]⟩ : Shape).Idx → EReal)
    (C : (⟨4, ![128, 32, 1, 1]⟩ : Shape).Idx → EReal) : (⟨4, ![128, 32, 1, 64]⟩ : Shape).Idx → EReal :=
  fun i => readout (eta4 C (i 0) (i 1)) (mat4 G (i 0) (i 1)) (mat4 W (i 0) (i 1)) (row4 XA (i 0) (i 1)) (row4 XB (i 0) (i 1))
    (row4 XC (i 0) (i 1)) (i 3)

end Cert.FastWeight

end
-- ==== Proof.ReferenceStep.lean ====
/-
  The reference's three results, index by index, are the fast-weight step of `Cert.FastWeight` on head
  `(b, h)`.

  The reference keeps batch and head as two leading axes. Its first and last contractions run over the 64
  positions of a row against a matrix's rows; its middle one, the outer product, contracts the chunk axis,
  which has ONE position, so that sum is its single term. Everything else is pointwise, the step size read at
  `(b, h, 0, 0)` by the broadcast.
-/
import proofs.«130262_j35210141892673_1_alg».proof.Proof.Gen.ReferenceIdeal.Read
import proofs.«130262_j35210141892673_1_alg».proof.Proof.FastWeightStep

noncomputable section

namespace Cert.ReferenceIdeal.Step

open Cert.ReferenceIdeal Cert.ReferenceIdeal.Read Cert.FastWeight
open Idealize.ShloMosaic Idealize.ShloMosaic.ValueIdx

variable (x0 x1 : (⟨S128x32x64x64, .f32⟩ : BufTy).Contents (Elt Ideal))
  (x2 x3 x4 : (⟨S128x32x1x64, .f32⟩ : BufTy).Contents (Elt Ideal))
  (x5 : (⟨S128x32x1x1, .f32⟩ : BufTy).Contents (Elt Ideal))

/-- The prediction error of head `(b, h)`. -/
theorem err_apply (b : Fin 128) (h : Fin 32) (u : Fin 1) (d : Fin 64) :
    val_main_v1 (F := Ideal) x0 x2 x3 (ix4 b h u d) = predErr (mat4 x0 b h) (row4 x2 b h) (row4 x3 b h) d := by
  obtain rfl : u = 0 := Subsingleton.elim _ _
  rw [val_main_v1_apply, val_main_v0_apply]
  have el : ∀ k : Fin 64, lidx_main_v0 (ix4 b h (0 : Fin 1) d) k = ix4 b h (0 : Fin 1) k := fun k => funext fun a => Fin.ext (by
    match a with
    | ⟨0, _⟩ => rfl
    | ⟨1, _⟩ => rfl
    | ⟨2, _⟩ => rfl
    | ⟨3, _⟩ => rfl)
  have er : ∀ k : Fin 64, ridx_main_v0 (ix4 b h (0 : Fin 1) d) k = ix4 b h k d := fun k => funext fun a => Fin.ext (by
    match a with
    | ⟨0, _⟩ => rfl
    | ⟨1, _⟩ => rfl
    | ⟨2, _⟩ => rfl
    | ⟨3, _⟩ => rfl)
  simp only [el, er]
  rfl

/-- The accumulated gradient of head `(b, h)`: the contraction over the one chunk position is its term. -/
theorem grad_apply (b : Fin 128) (h : Fin 32) (f d : Fin 64) :
    val_main_v3 (F := Ideal) x0 x1 x2 x3 (ix4 b h f d)
      = gradNew (mat4 x1 b h) (mat4 x0 b h) (row4 x2 b h) (row4 x3 b h) f d := by
  rw [val_main_v3_apply, val_main_v2_apply, Fin.sum_univ_one]
  have el : lidx_main_v2 (ix4 b h f d) (0 : Fin 1) = ix4 b h (0 : Fin 1) f := funext fun a => Fin.ext (by
    match a with
    | ⟨0, _⟩ => rfl
    | ⟨1, _⟩ => rfl
    | ⟨2, _⟩ => rfl
    | ⟨3, _⟩ => rfl)
  have er : ridx_main_v2 (ix4 b h f d) (0 : Fin 1) = ix4 b h (0 : Fin 1) d := funext fun a => Fin.ext (by
    match a with
    | ⟨0, _⟩ => rfl
    | ⟨1, _⟩ => rfl
    | ⟨2, _⟩ => rfl
    | ⟨3, _⟩ => rfl)
  rw [el, er, err_apply]
  rfl

/-- The updated weights of head `(b, h)`. -/
theorem weight_apply (b : Fin 128) (h : Fin 32) (f d : Fin 64) :
    val_main_v6 (F := Ideal) x0 x1 x2 x3 x5 (ix4 b h f d)
      = weightNew (eta4 x5 b h) (mat4 x1 b h) (mat4 x0 b h) (row4 x2 b h) (row4 x3 b h) f d := by
  rw [val_main_v6_apply, val_main_v5_apply, val_main_v4_apply, grad_apply]
  have e5 : idx_main_v4 (ix4 b h f d) = ix4 b h (0 : Fin 1) (0 : Fin 1) := funext fun a => Fin.ext (by
    match a with
    | ⟨0, _⟩ => rfl
    | ⟨1, _⟩ => rfl
    | ⟨2, _⟩ => rfl
    | ⟨3, _⟩ => rfl)
  rw [e5]
  rfl

/-- The readout of head `(b, h)`. -/
theorem readout_apply (b : Fin 128) (h : Fin 32) (u : Fin 1) (d : Fin 64) :
    val_main_v7 (F := Ideal) x0 x1 x2 x3 x4 x5 (ix4 b h u d)
      = readout (eta4 x5 b h) (mat4 x1 b h) (mat4 x0 b h) (row4 x2 b h) (row4 x3 b h) (row4 x4 b h) d := by
  obtain rfl : u = 0 := Subsingleton.elim _ _
  rw [val_main_v7_apply]
  have el : ∀ k : Fin 64, lidx_main_v7 (ix4 b h (0 : Fin 1) d) k = ix4 b h (0 : Fin 1) k := fun k => funext fun a => Fin.ext (by
    match a with
    | ⟨0, _⟩ => rfl
    | ⟨1, _⟩ => rfl
    | ⟨2, _⟩ => rfl
    | ⟨3, _⟩ => rfl)
  have er : ∀ k : Fin 64, ridx_main_v7 (ix4 b h (0 : Fin 1) d) k = ix4 b h k d := fun k => funext fun a => Fin.ext (by
    match a with
    | ⟨0, _⟩ => rfl
    | ⟨1, _⟩ => rfl
    | ⟨2, _⟩ => rfl
    | ⟨3, _⟩ => rfl)
  simp only [el, er, weight_apply]
  rfl

/-! ## The three results as whole arrays -/

theorem grad_eq : val_main_v3 (F := Ideal) x0 x1 x2 x3 = gradAll x0 x1 x2 x3 :=
  funext fun i => (congrArg (val_main_v3 (F := Ideal) x0 x1 x2 x3) (eq_ix4 i)).trans (grad_apply x0 x1 x2 x3 (i 0) (i 1) (i 2) (i 3))

theorem weight_eq : val_main_v6 (F := Ideal) x0 x1 x2 x3 x5 = weightAll x0 x1 x2 x3 x5 :=
  funext fun i => (congrArg (val_main_v6 (F := Ideal) x0 x1 x2 x3 x5) (eq_ix4 i)).trans (weight_apply x0 x1 x2 x3 x5 (i 0) (i 1) (i 2) (i 3))

theorem readout_eq : val_main_v7 (F := Ideal) x0 x1 x2 x3 x4 x5 = readoutAll x0 x1 x2 x3 x4 x5 :=
  funext fun i => (congrArg (val_main_v7 (F := Ideal) x0 x1 x2 x3 x4 x5) (eq_ix4 i)).trans (readout_apply x0 x1 x2 x3 x4 x5 (i 0) (i 1) (i 2) (i 3))

end Cert.ReferenceIdeal.Step

end
-- ==== Proof.LibLayout3.lean ====
/-
  Rank-3 layout operations read at an index written by coordinates: the shape casts that drop, add or move a
  UNIT axis that is not the leading one, and the broadcasts along the axes an operand holds only once. Each
  is the library's general `shapeCast_apply` / `broadcastTo_apply` with the two row-major positions, or the
  operand's coordinates, written out for the shape at hand.
-/
import Idealize.ShloMosaic.Lib.Pipeline.Value
import Idealize.ShloMosaic.Lib.ValueIdx

namespace Idealize.ShloMosaic.Layout3

open Idealize.ShloMosaic Idealize.ShloMosaic.ValueIdx

variable {α : Type}

/-! ## A middle or trailing unit axis dropped or added by a shape cast -/

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along the axes the operand holds once -/

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ fun d => match d with
    | ⟨0, _⟩ => by show i.val = if a = 1 then 0 else i.val; split <;> omega
    | ⟨1, _⟩ => by show j.val = if b = 1 then 0 else j.val; split <;> omega
    | ⟨2, _⟩ => by show (0 : ℕ) = if (1 : ℕ) = 1 then 0 else k.val; rw [if_pos rfl]

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ fun d => match d with
    | ⟨0, _⟩ => by show i.val = if a = 1 then 0 else i.val; split <;> omega
    | ⟨1, _⟩ => by show (0 : ℕ) = if (1 : ℕ) = 1 then 0 else j.val; rw [if_pos rfl]
    | ⟨2, _⟩ => by show k.val = if c = 1 then 0 else k.val; split <;> omega

/-- An `[a, 1, 1]` array broadcast to `[a, b, c]` reads, at `(i, j, k)`, the operand at `(i, 0, 0)`. -/
theorem broadcastTo_a11_abc_apply {a b c : ℕ} (x : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ x h (ix3 i j k) = x (ix3 i (0 : Fin 1) (0 : Fin 1)) :=
  broadcastTo_apply x h _ _ fun d => match d with
    | ⟨0, _⟩ => by show i.val = if a = 1 then 0 else i.val; split <;> omega
    | ⟨1, _⟩ => by show (0 : ℕ) = if (1 : ℕ) = 1 then 0 else j.val; rw [if_pos rfl]
    | ⟨2, _⟩ => by show (0 : ℕ) = if (1 : ℕ) = 1 then 0 else k.val; rw [if_pos rfl]

/-! ## Heads re-stacked: `[n, m, …]` against `[n · m, …]` -/

/-- An `[n, m, a, b]` array cast to `[n·m, a, b]` reads, at `(q, i, j)`, the operand at `(q / m, q % m, i, j)`: stated
    with the quotient and the remainder given as coordinates `(p, r)` with `q = p·m + r`. -/
theorem shapeCast_nmab_Nab_apply {n m N a b : ℕ} (x : (⟨4, ![n, m, a, b]⟩ : Shape).Idx → α)
    (h : (⟨4, ![n, m, a, b]⟩ : Shape).ShapeCasts ⟨3, ![N, a, b]⟩) (q : Fin N) (p : Fin n) (r : Fin m) (hq : q.val = p.val * m + r.val)
    (i : Fin a) (j : Fin b) :
    shapeCast ⟨3, ![N, a, b]⟩ x h (ix3 q i j) = x (ix4 p r i j) :=
  shapeCast_apply x h _ _ (by
    rw [Shape.rowMajor_val_four, Shape.rowMajor_val_three]
    show ((p.val * m + r.val) * a + i.val) * b + j.val = (q.val * a + i.val) * b + j.val
    rw [hq])

/-- An `[N, a, b]` array cast to `[n, m, a, b]` reads, at `(p, r, i, j)`, the operand at `(p·m + r, i, j)`. -/
theorem shapeCast_Nab_nmab_apply {n m N a b : ℕ} (x : (⟨3, ![N, a, b]⟩ : Shape).Idx → α)
    (h : (⟨3, ![N, a, b]⟩ : Shape).ShapeCasts ⟨4, ![n, m, a, b]⟩) (q : Fin N) (p : Fin n) (r : Fin m) (hq : q.val = p.val * m + r.val)
    (i : Fin a) (j : Fin b) :
    shapeCast ⟨4, ![n, m, a, b]⟩ x h (ix4 p r i j) = x (ix3 q i j) :=
  shapeCast_apply x h _ _ (by
    rw [Shape.rowMajor_val_four, Shape.rowMajor_val_three]
    show (q.val * a + i.val) * b + j.val = ((p.val * m + r.val) * a + i.val) * b + j.val
    rw [hq])

end Idealize.ShloMosaic.Layout3
-- ==== Proof.BodyStep.lean ====
/-
  What the kernel body computes on one block of 128 heads, index by index, at the ideal values.

  The body holds the heads' matrices as [128, 64, 64] blocks and their rows as [128, 1, 64] blocks. Its two
  products are batched row-times-matrix products: at head `p` and column `d` the sum over `k` of
  `l (p, 0, k) · r (p, k, d)` (the casts to bf16 in front of them are the identity at the ideal values, and the
  accumulator is zero). The outer product `xbᵀ z` is spelt by two broadcasts — `xb` along the columns, `z`
  along the rows — and a pointwise product. So the three stored values are, entry by entry, the accumulated
  gradient, the updated weights and the readout of `Cert.FastWeight` for the block's heads.
-/
import proofs.«130262_j35210141892673_1_alg».proof.Proof.Gen.KernelIdeal.Skeleton
import proofs.«130262_j35210141892673_1_alg».proof.Proof.FastWeightStep
import proofs.«130262_j35210141892673_1_alg».proof.Proof.LibLayout3
import Idealize.ShloMosaic.PureOps.Ideal.Laws
import Idealize.ShloMosaic.Lib.Pipeline.Value
import Idealize.ShloMosaic.Lib.ValueIdx

noncomputable section

namespace Cert.KernelIdeal.Body

open Cert.KernelIdeal Cert.KernelIdeal.Gen Cert.FastWeight
open Idealize.ShloMosaic Idealize.ShloMosaic.ValueIdx Idealize.ShloMosaic.Layout3

/-! ## The batched row-times-matrix product at an index

Axis 0 of both operands is the batch (the head inside the block); the left operand contracts its axis 2 and
keeps its unit axis 1, the right operand contracts its axis 1 and keeps its axis 2. -/

theorem lhs_rowmat_0 (i : S128x1x64.Idx) (q : dot_S128x1x64_S128x64x64_S128x1x64_2_1_1_2_0_0.contr.Idx) :
    (dot_S128x1x64_S128x64x64_S128x1x64_2_1_1_2_0_0.lhsIdx i q 0).val = (i 0).val := by
  unfold DotDims.lhsIdx
  rw [dif_pos (show (0 : Fin S128x1x64.rank) ∈ dot_S128x1x64_S128x64x64_S128x1x64_2_1_1_2_0_0.lhsBatch by decide)]
  rfl
theorem lhs_rowmat_1 (i : S128x1x64.Idx) (q : dot_S128x1x64_S128x64x64_S128x1x64_2_1_1_2_0_0.contr.Idx) :
    (dot_S128x1x64_S128x64x64_S128x1x64_2_1_1_2_0_0.lhsIdx i q 1).val = (i 1).val := by
  unfold DotDims.lhsIdx
  rw [dif_neg (show ¬(1 : Fin S128x1x64.rank) ∈ dot_S128x1x64_S128x64x64_S128x1x64_2_1_1_2_0_0.lhsBatch by decide), dif_pos (show (1 : Fin S128x1x64.rank) ∈ dot_S128x1x64_S128x64x64_S128x1x64_2_1_1_2_0_0.lhsNonContracting by decide)]
  rfl
theorem lhs_rowmat_2 (i : S128x1x64.Idx) (q : dot_S128x1x64_S128x64x64_S128x1x64_2_1_1_2_0_0.contr.Idx) :
    (dot_S128x1x64_S128x64x64_S128x1x64_2_1_1_2_0_0.lhsIdx i q 2).val = (q ⟨0, by decide⟩).val :=
  dot_S128x1x64_S128x64x64_S128x1x64_2_1_1_2_0_0.lhsIdx_val_of_single rfl i q
theorem rhs_rowmat_0 (i : S128x1x64.Idx) (q : dot_S128x1x64_S128x64x64_S128x1x64_2_1_1_2_0_0.contr.Idx) :
    (dot_S128x1x64_S128x64x64_S128x1x64_2_1_1_2_0_0.rhsIdx i q 0).val = (i 0).val := by
  unfold DotDims.rhsIdx
  rw [dif_pos (show (0 : Fin S128x64x64.rank) ∈ dot_S128x1x64_S128x64x64_S128x1x64_2_1_1_2_0_0.rhsBatch by decide)]
  rfl
theorem rhs_rowmat_1 (i : S128x1x64.Idx) (q : dot_S128x1x64_S128x64x64_S128x1x64_2_1_1_2_0_0.contr.Idx) :
    (dot_S128x1x64_S128x64x64_S128x1x64_2_1_1_2_0_0.rhsIdx i q 1).val = (q ⟨0, by decide⟩).val :=
  dot_S128x1x64_S128x64x64_S128x1x64_2_1_1_2_0_0.rhsIdx_val_of_single rfl i q
theorem rhs_rowmat_2 (i : S128x1x64.Idx) (q : dot_S128x1x64_S128x64x64_S128x1x64_2_1_1_2_0_0.contr.Idx) :
    (dot_S128x1x64_S128x64x64_S128x1x64_2_1_1_2_0_0.rhsIdx i q 2).val = (i 2).val := by
  unfold DotDims.rhsIdx
  rw [dif_neg (show ¬(2 : Fin S128x64x64.rank) ∈ dot_S128x1x64_S128x64x64_S128x1x64_2_1_1_2_0_0.rhsBatch by decide), dif_pos (show (2 : Fin S128x64x64.rank) ∈ dot_S128x1x64_S128x64x64_S128x1x64_2_1_1_2_0_0.rhsNonContracting by decide)]
  rfl

/-- Head `p`'s row times head `p`'s matrix, column `d`: the sum over the 64 contracted positions. -/
theorem rowmat_apply (l : FVec Ideal S128x1x64 .bf16) (r : FVec Ideal S128x64x64 .bf16) (p : Fin 128) (u : Fin 1) (d : Fin 64) :
    matmul dot_S128x1x64_S128x64x64_S128x1x64_2_1_1_2_0_0 none l r (constant (F := Ideal) S128x1x64 .f32 0x00000000#32) (ix3 p u d)
      = ∑ k : Fin 64, l (ix3 p u k) * r (ix3 p k d) := by
  simp only [matmul]
  rw [Ideal.matmul_constant_zero_apply, ← Equiv.sum_comp (ValueIdx.contrEquiv1 dot_S128x1x64_S128x64x64_S128x1x64_2_1_1_2_0_0 64 rfl rfl).symm]
  refine Finset.sum_congr rfl fun k _ => ?_
  have hk := ValueIdx.contrEquiv1_symm_val dot_S128x1x64_S128x64x64_S128x1x64_2_1_1_2_0_0 64 rfl rfl k
  have el : dot_S128x1x64_S128x64x64_S128x1x64_2_1_1_2_0_0.lhsIdx (ix3 p u d) ((ValueIdx.contrEquiv1 dot_S128x1x64_S128x64x64_S128x1x64_2_1_1_2_0_0 64 rfl rfl).symm k) = ix3 p u k := funext fun a => Fin.ext (by
    match a with
    | ⟨0, _⟩ => exact lhs_rowmat_0 _ _
    | ⟨1, _⟩ => exact lhs_rowmat_1 _ _
    | ⟨2, _⟩ => exact (lhs_rowmat_2 _ _).trans hk)
  have er : dot_S128x1x64_S128x64x64_S128x1x64_2_1_1_2_0_0.rhsIdx (ix3 p u d) ((ValueIdx.contrEquiv1 dot_S128x1x64_S128x64x64_S128x1x64_2_1_1_2_0_0 64 rfl rfl).symm k) = ix3 p k d := funext fun a => Fin.ext (by
    match a with
    | ⟨0, _⟩ => exact rhs_rowmat_0 _ _
    | ⟨1, _⟩ => exact (rhs_rowmat_1 _ _).trans hk
    | ⟨2, _⟩ => exact rhs_rowmat_2 _ _)
  rw [el, er]

/-! ## The two broadcasts of the outer product, and the step size's -/

/-- A row's entry `f` spread along the columns: the row viewed [128, 64], then [128, 64, 1], then broadcast. -/
theorem spreadCols_apply (x : FVec Ideal S128x1x64 .f32) (h1 : S128x1x64.ShapeCasts S128x64) (h2 : S128x64.ShapeCasts S128x64x1)
    (h3 : S128x64x1.Broadcasts S128x64x64) (p : Fin 128) (f d : Fin 64) :
    broadcastTo S128x64x64 (shapeCast S128x64x1 (shapeCast S128x64 x h1) h2) h3 (ix3 p f d) = x (ix3 p (0 : Fin 1) f) :=
  (broadcastTo_ab1_abc_apply _ h3 p f d).trans ((shapeCast_ab_ab1_apply _ h2 p f 0).trans (shapeCast_a1b_ab_apply x h1 p f))

/-- A row's entry `d` spread along the rows: the row viewed [128, 64], back to [128, 1, 64], then broadcast. -/
theorem spreadRows_apply (x : FVec Ideal S128x1x64 .f32) (h1 : S128x1x64.ShapeCasts S128x64) (h2 : S128x64.ShapeCasts S128x1x64)
    (h3 : S128x1x64.Broadcasts S128x64x64) (p : Fin 128) (f d : Fin 64) :
    broadcastTo S128x64x64 (shapeCast S128x1x64 (shapeCast S128x64 x h1) h2) h3 (ix3 p f d) = x (ix3 p (0 : Fin 1) d) :=
  (broadcastTo_a1c_abc_apply _ h3 p f d).trans ((shapeCast_ab_a1b_apply _ h2 p 0 d).trans (shapeCast_a1b_ab_apply x h1 p d))

/-- A head's step size spread over its matrix. -/
theorem spreadAll_apply (x : FVec Ideal S128x1x1 .f32) (h : S128x1x1.Broadcasts S128x64x64) (p : Fin 128) (f d : Fin 64) :
    broadcastTo S128x64x64 x h (ix3 p f d) = x (ix3 p (0 : Fin 1) (0 : Fin 1)) :=
  broadcastTo_a11_abc_apply x h p f d

/-! ## The three stored values -/

/-- The first loaded block passes through a cast to its own shape. -/
theorem pay1_eq (v0 : Vec Ideal S128x64x64 .f32) : k0_pay1 v0 = v0 := by
  unfold k0_pay1
  exact shapeCast_self v0 _

/-- The block written to the gradient's window: the accumulated gradients of the block's heads. -/
theorem pay2_apply (v0 v2 : Vec Ideal S128x64x64 .f32) (v4 v6 : Vec Ideal S128x1x64 .f32) (p : Fin 128) (f d : Fin 64) :
    k0_pay2 v0 v2 v4 v6 (ix3 p f d) = gradStack (N := 128) v0 v2 v4 v6 p f d := by
  unfold k0_pay2
  simp only [pay1_eq, shapeCast_self, addf_apply, mulf_apply, subf_apply, spreadCols_apply, spreadRows_apply, rowmat_apply,
    truncf_apply]
  rfl

/-- The block written to the weights' window: the updated weights of the block's heads. -/
theorem pay3_apply (v0 v2 : Vec Ideal S128x64x64 .f32) (v4 v6 : Vec Ideal S128x1x64 .f32) (v10 : Vec Ideal S128x1x1 .f32)
    (p : Fin 128) (f d : Fin 64) :
    k0_pay3 v0 v2 v4 v6 v10 (ix3 p f d) = weightStack (N := 128) v0 v2 v4 v6 v10 p f d := by
  unfold k0_pay3
  simp only [pay1_eq, shapeCast_self, mulf_apply, subf_apply, spreadAll_apply, pay2_apply]
  rfl

/-- The block written to the readout's window: the readouts of the block's heads. -/
theorem pay4_apply (v0 v2 : Vec Ideal S128x64x64 .f32) (v4 v6 v8 : Vec Ideal S128x1x64 .f32) (v10 : Vec Ideal S128x1x1 .f32)
    (p : Fin 128) (u : Fin 1) (d : Fin 64) :
    k0_pay4 v0 v2 v4 v6 v8 v10 (ix3 p u d) = readoutStack (N := 128) v0 v2 v4 v6 v8 v10 p d := by
  obtain rfl : u = 0 := Subsingleton.elim _ _
  unfold k0_pay4
  simp only [shapeCast_self, rowmat_apply, truncf_apply, pay3_apply]
  rfl

end Cert.KernelIdeal.Body

end
-- ==== Proof.KernelBlocks.lean ====
/-
  The kernel's three output arrays after its region, as stacks of 4096 heads.

  The grid has 32 points; point `t` works on heads `128·t … 128·t + 127`: every window's block index is
  `(t, 0, 0)`, so entry `(p, f, d)` of a block is entry `(128·t + p, f, d)` of its array. What point `t` writes
  back to an output is therefore block `t` of ONE function of the six arrays the region finds — the gradient,
  the weights and the readout of `Cert.FastWeight` head by head — and the 32 blocks tile each output array
  (head `n` lies in block `n / 128`), so each array ends holding that function.
-/
import proofs.«130262_j35210141892673_1_alg».proof.Proof.Gen.KernelIdeal.Frame
import proofs.«130262_j35210141892673_1_alg».proof.Proof.BodyStep
import Idealize.ShloMosaic.Lib.Pipeline.Value

noncomputable section

namespace Cert.KernelIdeal.Arrays

open Cert.KernelIdeal Cert.KernelIdeal.Gen Cert.KernelIdeal.Body Cert.FastWeight
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The six arrays the region finds, and its result as stacks of heads -/

abbrev arrW (c : Dev nD) : S4096x64x64.Idx → EReal := V m c main_v0
abbrev arrG (c : Dev nD) : S4096x64x64.Idx → EReal := V m c main_v1
abbrev arrXA (c : Dev nD) : S4096x1x64.Idx → EReal := V m c main_v2
abbrev arrXB (c : Dev nD) : S4096x1x64.Idx → EReal := V m c main_v3
abbrev arrXC (c : Dev nD) : S4096x1x64.Idx → EReal := V m c main_v4
abbrev arrEta (c : Dev nD) : S4096x1x1.Idx → EReal := V m c main_v5

/-- The accumulated gradients of all 4096 heads. -/
def gradArr (c : Dev nD) : S4096x64x64.Idx → EReal := fun i =>
  gradStack (N := 4096) (arrW m c) (arrG m c) (arrXA m c) (arrXB m c) (i 0) (i 1) (i 2)
/-- The updated weights of all 4096 heads. -/
def weightArr (c : Dev nD) : S4096x64x64.Idx → EReal := fun i =>
  weightStack (N := 4096) (arrW m c) (arrG m c) (arrXA m c) (arrXB m c) (arrEta m c) (i 0) (i 1) (i 2)
/-- The readouts of all 4096 heads. -/
def readoutArr (c : Dev nD) : S4096x1x64.Idx → EReal := fun i =>
  readoutStack (N := 4096) (arrW m c) (arrG m c) (arrXA m c) (arrXB m c) (arrXC m c) (arrEta m c) (i 0) (i 2)

/-! ## The grid: block `t` of every window starts at head `128·t` -/

theorem hz3 : (![0, 0, 0] : Fin 3 → Nat) = fun _ => 0 := funext fun a => by fin_cases a <;> rfl

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

/-- Head `p` of block `t` is head `128·t + p` of the stack. -/
def headOf (t : Fin cfg0.N) (p : Fin 128) : Fin 4096 :=
  ⟨t.val * 128 + p.val, by have h : t.val < 32 := lt_of_lt_of_eq t.isLt N_0; omega⟩

theorem headOf_val (t : Fin cfg0.N) (p : Fin 128) : (headOf t p).val = t.val * 128 + p.val := rfl

/-! ## Each input block read off its array -/

theorem blkW_apply (c : Dev nD) (t : Fin cfg0.N) (p : Fin 128) (f d : Fin 64) :
    (iblk m c 0 t : Vec Ideal S128x64x64 .f32) (ix3 p f d) = arrW m c (ix3 (headOf t p) f d) := by
  obtain ⟨e0, e1, e2⟩ := idx0 t
  unfold iblk
  rw [View.read_apply]
  show V m c main_v0 _ = V m c main_v0 _
  congr 1
  funext a
  apply Fin.ext
  match a with
  | ⟨0, _⟩ => show win0_0.index t (0 : Fin 3) * 128 + 1 * p.val = t.val * 128 + p.val; omega
  | ⟨1, _⟩ => show win0_0.index t (1 : Fin 3) * 64 + 1 * f.val = f.val; omega
  | ⟨2, _⟩ => show win0_0.index t (2 : Fin 3) * 64 + 1 * d.val = d.val; omega

theorem blkG_apply (c : Dev nD) (t : Fin cfg0.N) (p : Fin 128) (f d : Fin 64) :
    (iblk m c 1 t : Vec Ideal S128x64x64 .f32) (ix3 p f d) = arrG m c (ix3 (headOf t p) f d) := by
  obtain ⟨e0, e1, e2⟩ := idx1 t
  unfold iblk
  rw [View.read_apply]
  show V m c main_v1 _ = V m c main_v1 _
  congr 1
  funext a
  apply Fin.ext
  match a with
  | ⟨0, _⟩ => show win0_1.index t (0 : Fin 3) * 128 + 1 * p.val = t.val * 128 + p.val; omega
  | ⟨1, _⟩ => show win0_1.index t (1 : Fin 3) * 64 + 1 * f.val = f.val; omega
  | ⟨2, _⟩ => show win0_1.index t (2 : Fin 3) * 64 + 1 * d.val = d.val; omega

theorem blkXA_apply (c : Dev nD) (t : Fin cfg0.N) (p : Fin 128) (u : Fin 1) (d : Fin 64) :
    (iblk m c 2 t : Vec Ideal S128x1x64 .f32) (ix3 p u d) = arrXA m c (ix3 (headOf t p) u d) := by
  obtain ⟨e0, e1, e2⟩ := idx2 t
  unfold iblk
  rw [View.read_apply]
  show V m c main_v2 _ = V m c main_v2 _
  congr 1
  funext a
  apply Fin.ext
  match a with
  | ⟨0, _⟩ => show win0_2.index t (0 : Fin 3) * 128 + 1 * p.val = t.val * 128 + p.val; omega
  | ⟨1, _⟩ => show win0_2.index t (1 : Fin 3) * 1 + 1 * u.val = u.val; omega
  | ⟨2, _⟩ => show win0_2.index t (2 : Fin 3) * 64 + 1 * d.val = d.val; omega

theorem blkXB_apply (c : Dev nD) (t : Fin cfg0.N) (p : Fin 128) (u : Fin 1) (d : Fin 64) :
    (iblk m c 3 t : Vec Ideal S128x1x64 .f32) (ix3 p u d) = arrXB m c (ix3 (headOf t p) u d) := by
  obtain ⟨e0, e1, e2⟩ := idx3 t
  unfold iblk
  rw [View.read_apply]
  show V m c main_v3 _ = V m c main_v3 _
  congr 1
  funext a
  apply Fin.ext
  match a with
  | ⟨0, _⟩ => show win0_3.index t (0 : Fin 3) * 128 + 1 * p.val = t.val * 128 + p.val; omega
  | ⟨1, _⟩ => show win0_3.index t (1 : Fin 3) * 1 + 1 * u.val = u.val; omega
  | ⟨2, _⟩ => show win0_3.index t (2 : Fin 3) * 64 + 1 * d.val = d.val; omega

theorem blkXC_apply (c : Dev nD) (t : Fin cfg0.N) (p : Fin 128) (u : Fin 1) (d : Fin 64) :
    (iblk m c 4 t : Vec Ideal S128x1x64 .f32) (ix3 p u d) = arrXC m c (ix3 (headOf t p) u d) := by
  obtain ⟨e0, e1, e2⟩ := idx4 t
  unfold iblk
  rw [View.read_apply]
  show V m c main_v4 _ = V m c main_v4 _
  congr 1
  funext a
  apply Fin.ext
  match a with
  | ⟨0, _⟩ => show win0_4.index t (0 : Fin 3) * 128 + 1 * p.val = t.val * 128 + p.val; omega
  | ⟨1, _⟩ => show win0_4.index t (1 : Fin 3) * 1 + 1 * u.val = u.val; omega
  | ⟨2, _⟩ => show win0_4.index t (2 : Fin 3) * 64 + 1 * d.val = d.val; omega

theorem blkEta_apply (c : Dev nD) (t : Fin cfg0.N) (p : Fin 128) (u v : Fin 1) :
    (iblk m c 5 t : Vec Ideal S128x1x1 .f32) (ix3 p u v) = arrEta m c (ix3 (headOf t p) u v) := by
  obtain ⟨e0, e1, e2⟩ := idx5 t
  unfold iblk
  rw [View.read_apply]
  show V m c main_v5 _ = V m c main_v5 _
  congr 1
  funext a
  apply Fin.ext
  match a with
  | ⟨0, _⟩ => show win0_5.index t (0 : Fin 3) * 128 + 1 * p.val = t.val * 128 + p.val; omega
  | ⟨1, _⟩ => show win0_5.index t (1 : Fin 3) * 1 + 1 * u.val = u.val; omega
  | ⟨2, _⟩ => show win0_5.index t (2 : Fin 3) * 1 + 1 * v.val = v.val; omega

/-! ## A head's slices in a block are its slices in the stack -/

theorem matW_blk (c : Dev nD) (t : Fin cfg0.N) (p : Fin 128) :
    mat3 (N := 128) (iblk m c 0 t : Vec Ideal S128x64x64 .f32) p = mat3 (N := 4096) (arrW m c) (headOf t p) :=
  funext fun f => funext fun d => blkW_apply m c t p f d
theorem matG_blk (c : Dev nD) (t : Fin cfg0.N) (p : Fin 128) :
    mat3 (N := 128) (iblk m c 1 t : Vec Ideal S128x64x64 .f32) p = mat3 (N := 4096) (arrG m c) (headOf t p) :=
  funext fun f => funext fun d => blkG_apply m c t p f d
theorem rowXA_blk (c : Dev nD) (t : Fin cfg0.N) (p : Fin 128) :
    row3 (N := 128) (iblk m c 2 t : Vec Ideal S128x1x64 .f32) p = row3 (N := 4096) (arrXA m c) (headOf t p) :=
  funext fun d => blkXA_apply m c t p 0 d
theorem rowXB_blk (c : Dev nD) (t : Fin cfg0.N) (p : Fin 128) :
    row3 (N := 128) (iblk m c 3 t : Vec Ideal S128x1x64 .f32) p = row3 (N := 4096) (arrXB m c) (headOf t p) :=
  funext fun d => blkXB_apply m c t p 0 d
theorem rowXC_blk (c : Dev nD) (t : Fin cfg0.N) (p : Fin 128) :
    row3 (N := 128) (iblk m c 4 t : Vec Ideal S128x1x64 .f32) p = row3 (N := 4096) (arrXC m c) (headOf t p) :=
  funext fun d => blkXC_apply m c t p 0 d
theorem eta_blk (c : Dev nD) (t : Fin cfg0.N) (p : Fin 128) :
    eta3 (N := 128) (iblk m c 5 t : Vec Ideal S128x1x1 .f32) p = eta3 (N := 4096) (arrEta m c) (headOf t p) :=
  blkEta_apply m c t p 0 0

/-! ## What a point stores, entry by entry, is the stack's function at the block's heads -/

theorem grad_entry (c : Dev nD) (t : Fin cfg0.N) (p : Fin 128) (f d : Fin 64) :
    k0_pay2 (iblk m c 0 t) (iblk m c 1 t) (iblk m c 2 t) (iblk m c 3 t) (ix3 p f d) = gradArr m c (ix3 (headOf t p) f d) := by
  refine (pay2_apply (iblk m c 0 t) (iblk m c 1 t) (iblk m c 2 t) (iblk m c 3 t) p f d).trans ?_
  show gradNew (mat3 (N := 128) (iblk m c 1 t : Vec Ideal S128x64x64 .f32) p) (mat3 (N := 128) (iblk m c 0 t : Vec Ideal S128x64x64 .f32) p)
      (row3 (N := 128) (iblk m c 2 t : Vec Ideal S128x1x64 .f32) p) (row3 (N := 128) (iblk m c 3 t : Vec Ideal S128x1x64 .f32) p) f d
    = gradNew (mat3 (N := 4096) (arrG m c) (headOf t p)) (mat3 (N := 4096) (arrW m c) (headOf t p))
      (row3 (N := 4096) (arrXA m c) (headOf t p)) (row3 (N := 4096) (arrXB m c) (headOf t p)) f d
  rw [matW_blk, matG_blk, rowXA_blk, rowXB_blk]

theorem weight_entry (c : Dev nD) (t : Fin cfg0.N) (p : Fin 128) (f d : Fin 64) :
    k0_pay3 (iblk m c 0 t) (iblk m c 1 t) (iblk m c 2 t) (iblk m c 3 t) (iblk m c 5 t) (ix3 p f d) = weightArr m c (ix3 (headOf t p) f d) := by
  refine (pay3_apply (iblk m c 0 t) (iblk m c 1 t) (iblk m c 2 t) (iblk m c 3 t) (iblk m c 5 t) p f d).trans ?_
  show weightNew (eta3 (N := 128) (iblk m c 5 t : Vec Ideal S128x1x1 .f32) p)
      (mat3 (N := 128) (iblk m c 1 t : Vec Ideal S128x64x64 .f32) p) (mat3 (N := 128) (iblk m c 0 t : Vec Ideal S128x64x64 .f32) p)
      (row3 (N := 128) (iblk m c 2 t : Vec Ideal S128x1x64 .f32) p) (row3 (N := 128) (iblk m c 3 t : Vec Ideal S128x1x64 .f32) p) f d
    = weightNew (eta3 (N := 4096) (arrEta m c) (headOf t p))
      (mat3 (N := 4096) (arrG m c) (headOf t p)) (mat3 (N := 4096) (arrW m c) (headOf t p))
      (row3 (N := 4096) (arrXA m c) (headOf t p)) (row3 (N := 4096) (arrXB m c) (headOf t p)) f d
  rw [matW_blk, matG_blk, rowXA_blk, rowXB_blk, eta_blk]

theorem readout_entry (c : Dev nD) (t : Fin cfg0.N) (p : Fin 128) (u : Fin 1) (d : Fin 64) :
    k0_pay4 (iblk m c 0 t) (iblk m c 1 t) (iblk m c 2 t) (iblk m c 3 t) (iblk m c 4 t) (iblk m c 5 t) (ix3 p u d)
      = readoutArr m c (ix3 (headOf t p) u d) := by
  refine (pay4_apply (iblk m c 0 t) (iblk m c 1 t) (iblk m c 2 t) (iblk m c 3 t) (iblk m c 4 t) (iblk m c 5 t) p u d).trans ?_
  show readout (eta3 (N := 128) (iblk m c 5 t : Vec Ideal S128x1x1 .f32) p)
      (mat3 (N := 128) (iblk m c 1 t : Vec Ideal S128x64x64 .f32) p) (mat3 (N := 128) (iblk m c 0 t : Vec Ideal S128x64x64 .f32) p)
      (row3 (N := 128) (iblk m c 2 t : Vec Ideal S128x1x64 .f32) p) (row3 (N := 128) (iblk m c 3 t : Vec Ideal S128x1x64 .f32) p)
      (row3 (N := 128) (iblk m c 4 t : Vec Ideal S128x1x64 .f32) p) d
    = readout (eta3 (N := 4096) (arrEta m c) (headOf t p))
      (mat3 (N := 4096) (arrG m c) (headOf t p)) (mat3 (N := 4096) (arrW m c) (headOf t p))
      (row3 (N := 4096) (arrXA m c) (headOf t p)) (row3 (N := 4096) (arrXB m c) (headOf t p))
      (row3 (N := 4096) (arrXC m c) (headOf t p)) d
  rw [matW_blk, matG_blk, rowXA_blk, rowXB_blk, rowXC_blk, eta_blk]

theorem grad_block (c : Dev nD) (t : Fin cfg0.N) (j : S128x64x64.Idx) :
    k0_pay2 (iblk m c 0 t) (iblk m c 1 t) (iblk m c 2 t) (iblk m c 3 t) j = gradArr m c (ix3 (headOf t (j 0)) (j 1) (j 2)) :=
  (congrArg (k0_pay2 (iblk m c 0 t) (iblk m c 1 t) (iblk m c 2 t) (iblk m c 3 t)) (eq_ix3 j)).trans (grad_entry m c t (j 0) (j 1) (j 2))

theorem weight_block (c : Dev nD) (t : Fin cfg0.N) (j : S128x64x64.Idx) :
    k0_pay3 (iblk m c 0 t) (iblk m c 1 t) (iblk m c 2 t) (iblk m c 3 t) (iblk m c 5 t) j = weightArr m c (ix3 (headOf t (j 0)) (j 1) (j 2)) :=
  (congrArg (k0_pay3 (iblk m c 0 t) (iblk m c 1 t) (iblk m c 2 t) (iblk m c 3 t) (iblk m c 5 t)) (eq_ix3 j)).trans (weight_entry m c t (j 0) (j 1) (j 2))

theorem readout_block (c : Dev nD) (t : Fin cfg0.N) (j : S128x1x64.Idx) :
    k0_pay4 (iblk m c 0 t) (iblk m c 1 t) (iblk m c 2 t) (iblk m c 3 t) (iblk m c 4 t) (iblk m c 5 t) j
      = readoutArr m c (ix3 (headOf t (j 0)) (j 1) (j 2)) :=
  (congrArg (k0_pay4 (iblk m c 0 t) (iblk m c 1 t) (iblk m c 2 t) (iblk m c 3 t) (iblk m c 4 t) (iblk m c 5 t)) (eq_ix3 j)).trans (readout_entry m c t (j 0) (j 1) (j 2))

/-! ## What point `t` writes back is block `t` of the stack's function -/

theorem flushedG_eq (c : Dev nD) (t : Fin cfg0.N) :
    (dats m 0 c).flushed 8 t = ((cfg0.win 8).blk t).view.read (Elt Ideal) (gradArr m c) := by
  show (cfg0.win 8).cut (grid0.coords t) ((dats m 0 c).after 8 t) = _
  rw [after0_8]
  unfold out0_8
  rw [View.canon_unit_zero hz3]
  simp only [View.ld_unit_zero (S := S128x64x64) hz3, View.ld_unit_zero (S := S128x1x64) hz3]
  obtain ⟨e0, e1, e2⟩ := idx8 t
  funext j
  refine (grad_block m c t j).trans ?_
  show gradArr m c _ = gradArr m c (((cfg0.win 8).blk t).view.emb j)
  congr 1
  funext a
  apply Fin.ext
  match a with
  | ⟨0, _⟩ => show t.val * 128 + (j 0).val = win0_8.index t (0 : Fin 3) * 128 + 1 * (j 0).val; omega
  | ⟨1, _⟩ => show (j 1).val = win0_8.index t (1 : Fin 3) * 64 + 1 * (j 1).val; omega
  | ⟨2, _⟩ => show (j 2).val = win0_8.index t (2 : Fin 3) * 64 + 1 * (j 2).val; omega

theorem flushedW_eq (c : Dev nD) (t : Fin cfg0.N) :
    (dats m 0 c).flushed 7 t = ((cfg0.win 7).blk t).view.read (Elt Ideal) (weightArr m c) := by
  show (cfg0.win 7).cut (grid0.coords t) ((dats m 0 c).after 7 t) = _
  rw [after0_7]
  unfold out0_7
  rw [View.canon_unit_zero hz3]
  simp only [View.ld_unit_zero (S := S128x64x64) hz3, View.ld_unit_zero (S := S128x1x64) hz3, View.ld_unit_zero (S := S128x1x1) hz3]
  obtain ⟨e0, e1, e2⟩ := idx7 t
  funext j
  refine (weight_block m c t j).trans ?_
  show weightArr m c _ = weightArr m c (((cfg0.win 7).blk t).view.emb j)
  congr 1
  funext a
  apply Fin.ext
  match a with
  | ⟨0, _⟩ => show t.val * 128 + (j 0).val = win0_7.index t (0 : Fin 3) * 128 + 1 * (j 0).val; omega
  | ⟨1, _⟩ => show (j 1).val = win0_7.index t (1 : Fin 3) * 64 + 1 * (j 1).val; omega
  | ⟨2, _⟩ => show (j 2).val = win0_7.index t (2 : Fin 3) * 64 + 1 * (j 2).val; omega

theorem flushedO_eq (c : Dev nD) (t : Fin cfg0.N) :
    (dats m 0 c).flushed 6 t = ((cfg0.win 6).blk t).view.read (Elt Ideal) (readoutArr m c) := by
  show (cfg0.win 6).cut (grid0.coords t) ((dats m 0 c).after 6 t) = _
  rw [after0_6]
  unfold out0_6
  rw [View.canon_unit_zero hz3]
  simp only [View.ld_unit_zero (S := S128x64x64) hz3, View.ld_unit_zero (S := S128x1x64) hz3, View.ld_unit_zero (S := S128x1x1) hz3]
  obtain ⟨e0, e1, e2⟩ := idx6 t
  funext j
  refine (readout_block m c t j).trans ?_
  show readoutArr m c _ = readoutArr m c (((cfg0.win 6).blk t).view.emb j)
  congr 1
  funext a
  apply Fin.ext
  match a with
  | ⟨0, _⟩ => show t.val * 128 + (j 0).val = win0_6.index t (0 : Fin 3) * 128 + 1 * (j 0).val; omega
  | ⟨1, _⟩ => show (j 1).val = win0_6.index t (1 : Fin 3) * 1 + 1 * (j 1).val; omega
  | ⟨2, _⟩ => show (j 2).val = win0_6.index t (2 : Fin 3) * 64 + 1 * (j 2).val; omega

/-! ## The 32 blocks tile each output array -/

theorem mem_blkG (t : Fin cfg0.N) (i : S4096x64x64.Idx) :
    i ∈ ((cfg0.win 8).blk t).view.set ↔ ∀ a : Fin 3, win0_8.index t a * S128x64x64.size a ≤ (i a).val ∧ (i a).val < win0_8.index t a * S128x64x64.size a + S128x64x64.size a := by
  show i ∈ ((View.whole main_v6_2).slice (win0_8.rect t)).set ↔ _
  rw [View.set_slice_whole, Rect.mem_set_unit]
  exact Iff.rfl

theorem mem_blkW (t : Fin cfg0.N) (i : S4096x64x64.Idx) :
    i ∈ ((cfg0.win 7).blk t).view.set ↔ ∀ a : Fin 3, win0_7.index t a * S128x64x64.size a ≤ (i a).val ∧ (i a).val < win0_7.index t a * S128x64x64.size a + S128x64x64.size a := by
  show i ∈ ((View.whole main_v6_1).slice (win0_7.rect t)).set ↔ _
  rw [View.set_slice_whole, Rect.mem_set_unit]
  exact Iff.rfl

theorem mem_blkO (t : Fin cfg0.N) (i : S4096x1x64.Idx) :
    i ∈ ((cfg0.win 6).blk t).view.set ↔ ∀ a : Fin 3, win0_6.index t a * S128x1x64.size a ≤ (i a).val ∧ (i a).val < win0_6.index t a * S128x1x64.size a + S128x1x64.size a := by
  show i ∈ ((View.whole main_v6_0).slice (win0_6.rect t)).set ↔ _
  rw [View.set_slice_whole, Rect.mem_set_unit]
  exact Iff.rfl

/-- The point whose block holds head `n`: `n / 128`. -/
theorem point_of_head (n : Nat) (hn : n < 4096) : ∃ t : Fin cfg0.N, t.val = n / 128 :=
  ⟨⟨n / 128, by rw [show cfg0.N = 32 from N_0]; omega⟩, rfl⟩

theorem coverG (i : S4096x64x64.Idx) : ∃ t : Fin cfg0.N, (cfg0.win 8).flush t = true ∧ i ∈ ((cfg0.win 8).blk t).view.set := by
  have hi0 : (i 0).val < 4096 := (i 0).isLt
  have hi1 : (i 1).val < 64 := (i 1).isLt
  have hi2 : (i 2).val < 64 := (i 2).isLt
  obtain ⟨t, ht⟩ := point_of_head (i 0).val hi0
  obtain ⟨e0, e1, e2⟩ := idx8 t
  refine ⟨t, flush0_8 t, ?_⟩
  rw [mem_blkG]
  intro a
  match a with
  | ⟨0, _⟩ => show win0_8.index t (0 : Fin 3) * 128 ≤ (i 0).val ∧ (i 0).val < win0_8.index t (0 : Fin 3) * 128 + 128; omega
  | ⟨1, _⟩ => show win0_8.index t (1 : Fin 3) * 64 ≤ (i 1).val ∧ (i 1).val < win0_8.index t (1 : Fin 3) * 64 + 64; omega
  | ⟨2, _⟩ => show win0_8.index t (2 : Fin 3) * 64 ≤ (i 2).val ∧ (i 2).val < win0_8.index t (2 : Fin 3) * 64 + 64; omega

theorem coverW (i : S4096x64x64.Idx) : ∃ t : Fin cfg0.N, (cfg0.win 7).flush t = true ∧ i ∈ ((cfg0.win 7).blk t).view.set := by
  have hi0 : (i 0).val < 4096 := (i 0).isLt
  have hi1 : (i 1).val < 64 := (i 1).isLt
  have hi2 : (i 2).val < 64 := (i 2).isLt
  obtain ⟨t, ht⟩ := point_of_head (i 0).val hi0
  obtain ⟨e0, e1, e2⟩ := idx7 t
  refine ⟨t, flush0_7 t, ?_⟩
  rw [mem_blkW]
  intro a
  match a with
  | ⟨0, _⟩ => show win0_7.index t (0 : Fin 3) * 128 ≤ (i 0).val ∧ (i 0).val < win0_7.index t (0 : Fin 3) * 128 + 128; omega
  | ⟨1, _⟩ => show win0_7.index t (1 : Fin 3) * 64 ≤ (i 1).val ∧ (i 1).val < win0_7.index t (1 : Fin 3) * 64 + 64; omega
  | ⟨2, _⟩ => show win0_7.index t (2 : Fin 3) * 64 ≤ (i 2).val ∧ (i 2).val < win0_7.index t (2 : Fin 3) * 64 + 64; omega

theorem coverO (i : S4096x1x64.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hi2 : (i 2).val < 64 := (i 2).isLt
  obtain ⟨t, ht⟩ := point_of_head (i 0).val hi0
  obtain ⟨e0, e1, e2⟩ := idx6 t
  refine ⟨t, flush0_6 t, ?_⟩
  rw [mem_blkO]
  intro a
  match a with
  | ⟨0, _⟩ => show win0_6.index t (0 : Fin 3) * 128 ≤ (i 0).val ∧ (i 0).val < win0_6.index t (0 : Fin 3) * 128 + 128; omega
  | ⟨1, _⟩ => show win0_6.index t (1 : Fin 3) * 1 ≤ (i 1).val ∧ (i 1).val < win0_6.index t (1 : Fin 3) * 1 + 1; omega
  | ⟨2, _⟩ => show win0_6.index t (2 : Fin 3) * 64 ≤ (i 2).val ∧ (i 2).val < win0_6.index t (2 : Fin 3) * 64 + 64; omega

/-! ## The arrays after the region -/

theorem finalG (c : Dev nD) : (dats m 0 c).arrAt 8 cfg0.N = gradArr m c :=
  (dats m 0 c).arrAt_eq_of_cover 8 (gradArr m c) (fun t _ => flushedG_eq m c t) coverG

theorem finalW (c : Dev nD) : (dats m 0 c).arrAt 7 cfg0.N = weightArr m c :=
  (dats m 0 c).arrAt_eq_of_cover 7 (weightArr m c) (fun t _ => flushedW_eq m c t) coverW

theorem finalO (c : Dev nD) : (dats m 0 c).arrAt 6 cfg0.N = readoutArr m c :=
  (dats m 0 c).arrAt_eq_of_cover 6 (readoutArr m c) (fun t _ => flushedO_eq m c t) coverO

end Cert.KernelIdeal.Arrays

end
-- ==== Proof.KernelRun.lean ====
/-
  The kernel program's run, read: its three results are the fast-weight step of every head `(b, h)`.

  Around its region the program only re-stacks: each argument [128, 32, …] is viewed [4096, …] before the
  region, head `(b, h)` becoming row `32·b + h`, and each of the region's arrays is viewed [128, 32, …] again
  after it. A row-major view moves no entry, so entry `(b, h, f, d)` of a result is entry `(32·b + h, f, d)` of
  the region's array, which is the step's function of the slices at row `32·b + h` of the re-stacked
  arguments, that is of the slices at `(b, h)` of the arguments themselves.
-/
import proofs.«130262_j35210141892673_1_alg».proof.Proof.KernelBlocks
import proofs.«130262_j35210141892673_1_alg».proof.Proof.LibLayout3
import Idealize.ShloMosaic.Lib.StableHlo.Run

noncomputable section

namespace Cert.KernelIdeal.Arrays

open Cert.KernelIdeal Cert.KernelIdeal.Gen Cert.KernelIdeal.Body Cert.FastWeight
open Idealize.ShloMosaic Idealize.ShloMosaic.TcCoe Idealize.SL.Sem Idealize.ShloMosaic.ValueIdx Idealize.ShloMosaic.Layout3
open Idealize.ShloMosaic.Pipeline (Dat)

variable (m : (ℓ : Loc nD τ sig) → Buf (Elt Ideal) ℓ) (ρ : Dev nD → PrngReg)

/-! ## The arguments, as launched -/

abbrev argW (c : Dev nD) : S128x32x64x64.Idx → EReal := m ((c : Thread nD τ).loc main_arg0)
abbrev argG (c : Dev nD) : S128x32x64x64.Idx → EReal := m ((c : Thread nD τ).loc main_arg1)
abbrev argXA (c : Dev nD) : S128x32x1x64.Idx → EReal := m ((c : Thread nD τ).loc main_arg2)
abbrev argXB (c : Dev nD) : S128x32x1x64.Idx → EReal := m ((c : Thread nD τ).loc main_arg3)
abbrev argXC (c : Dev nD) : S128x32x1x64.Idx → EReal := m ((c : Thread nD τ).loc main_arg4)
abbrev argEta (c : Dev nD) : S128x32x1x1.Idx → EReal := m ((c : Thread nD τ).loc main_arg5)

/-- Head `(b, h)` is row `32·b + h` of the stack. -/
def rowOf (b : Fin 128) (h : Fin 32) : Fin 4096 := ⟨b.val * 32 + h.val, by omega⟩

/-! ## The arrays the region finds are the arguments re-stacked -/

theorem arrW_eq (c : Dev nD) : arrW m c = shapeCast S4096x64x64 (argW m c) shapeCasts_S128x32x64x64_S4096x64x64 := by
  show StableHlo.after hostOps0 (fun b => m (c, b)) (Proc.devRef .tc main_v0) = _
  after_results
  rfl
theorem arrG_eq (c : Dev nD) : arrG m c = shapeCast S4096x64x64 (argG m c) shapeCasts_S128x32x64x64_S4096x64x64 := by
  show StableHlo.after hostOps0 (fun b => m (c, b)) (Proc.devRef .tc main_v1) = _
  after_results
  rfl
theorem arrXA_eq (c : Dev nD) : arrXA m c = shapeCast S4096x1x64 (argXA m c) shapeCasts_S128x32x1x64_S4096x1x64 := by
  show StableHlo.after hostOps0 (fun b => m (c, b)) (Proc.devRef .tc main_v2) = _
  after_results
  rfl
theorem arrXB_eq (c : Dev nD) : arrXB m c = shapeCast S4096x1x64 (argXB m c) shapeCasts_S128x32x1x64_S4096x1x64 := by
  show StableHlo.after hostOps0 (fun b => m (c, b)) (Proc.devRef .tc main_v3) = _
  after_results
  rfl
theorem arrXC_eq (c : Dev nD) : arrXC m c = shapeCast S4096x1x64 (argXC m c) shapeCasts_S128x32x1x64_S4096x1x64 := by
  show StableHlo.after hostOps0 (fun b => m (c, b)) (Proc.devRef .tc main_v4) = _
  after_results
  rfl
theorem arrEta_eq (c : Dev nD) : arrEta m c = shapeCast S4096x1x1 (argEta m c) shapeCasts_S128x32x1x1_S4096x1x1 := by
  show StableHlo.after hostOps0 (fun b => m (c, b)) (Proc.devRef .tc main_v5) = _
  after_results
  rfl

/-! ## Row `32·b + h` of a re-stacked argument is the argument's slice at `(b, h)` -/

theorem matW_row (c : Dev nD) (b : Fin 128) (h : Fin 32) : mat3 (N := 4096) (arrW m c) (rowOf b h) = mat4 (argW m c) b h :=
  funext fun f => funext fun d =>
    (congrFun (arrW_eq m c) (ix3 (rowOf b h) f d)).trans (shapeCast_nmab_Nab_apply (argW m c) _ (rowOf b h) b h rfl f d)
theorem matG_row (c : Dev nD) (b : Fin 128) (h : Fin 32) : mat3 (N := 4096) (arrG m c) (rowOf b h) = mat4 (argG m c) b h :=
  funext fun f => funext fun d =>
    (congrFun (arrG_eq m c) (ix3 (rowOf b h) f d)).trans (shapeCast_nmab_Nab_apply (argG m c) _ (rowOf b h) b h rfl f d)
theorem rowXA_row (c : Dev nD) (b : Fin 128) (h : Fin 32) : row3 (N := 4096) (arrXA m c) (rowOf b h) = row4 (argXA m c) b h :=
  funext fun d =>
    (congrFun (arrXA_eq m c) (ix3 (rowOf b h) (0 : Fin 1) d)).trans (shapeCast_nmab_Nab_apply (argXA m c) _ (rowOf b h) b h rfl (0 : Fin 1) d)
theorem rowXB_row (c : Dev nD) (b : Fin 128) (h : Fin 32) : row3 (N := 4096) (arrXB m c) (rowOf b h) = row4 (argXB m c) b h :=
  funext fun d =>
    (congrFun (arrXB_eq m c) (ix3 (rowOf b h) (0 : Fin 1) d)).trans (shapeCast_nmab_Nab_apply (argXB m c) _ (rowOf b h) b h rfl (0 : Fin 1) d)
theorem rowXC_row (c : Dev nD) (b : Fin 128) (h : Fin 32) : row3 (N := 4096) (arrXC m c) (rowOf b h) = row4 (argXC m c) b h :=
  funext fun d =>
    (congrFun (arrXC_eq m c) (ix3 (rowOf b h) (0 : Fin 1) d)).trans (shapeCast_nmab_Nab_apply (argXC m c) _ (rowOf b h) b h rfl (0 : Fin 1) d)
theorem eta_row (c : Dev nD) (b : Fin 128) (h : Fin 32) : eta3 (N := 4096) (arrEta m c) (rowOf b h) = eta4 (argEta m c) b h :=
  (congrFun (arrEta_eq m c) (ix3 (rowOf b h) (0 : Fin 1) (0 : Fin 1))).trans
    (shapeCast_nmab_Nab_apply (argEta m c) _ (rowOf b h) b h rfl (0 : Fin 1) (0 : Fin 1))

/-! ## The region's arrays viewed [128, 32, …] again are the step of every head `(b, h)` -/

theorem gradView_entry (c : Dev nD) (hc : S4096x64x64.ShapeCasts S128x32x64x64) (b : Fin 128) (h : Fin 32) (f d : Fin 64) :
    shapeCast S128x32x64x64 (gradArr m c) hc (ix4 b h f d)
      = gradNew (mat4 (argG m c) b h) (mat4 (argW m c) b h) (row4 (argXA m c) b h) (row4 (argXB m c) b h) f d := by
  refine (shapeCast_Nab_nmab_apply (gradArr m c) hc (rowOf b h) b h rfl f d).trans ?_
  show gradNew (mat3 (N := 4096) (arrG m c) (rowOf b h)) (mat3 (N := 4096) (arrW m c) (rowOf b h))
      (row3 (N := 4096) (arrXA m c) (rowOf b h)) (row3 (N := 4096) (arrXB m c) (rowOf b h)) f d = _
  rw [matW_row, matG_row, rowXA_row, rowXB_row]

theorem weightView_entry (c : Dev nD) (hc : S4096x64x64.ShapeCasts S128x32x64x64) (b : Fin 128) (h : Fin 32) (f d : Fin 64) :
    shapeCast S128x32x64x64 (weightArr m c) hc (ix4 b h f d)
      = weightNew (eta4 (argEta m c) b h) (mat4 (argG m c) b h) (mat4 (argW m c) b h) (row4 (argXA m c) b h) (row4 (argXB m c) b h) f d := by
  refine (shapeCast_Nab_nmab_apply (weightArr m c) hc (rowOf b h) b h rfl f d).trans ?_
  show weightNew (eta3 (N := 4096) (arrEta m c) (rowOf b h)) (mat3 (N := 4096) (arrG m c) (rowOf b h)) (mat3 (N := 4096) (arrW m c) (rowOf b h))
      (row3 (N := 4096) (arrXA m c) (rowOf b h)) (row3 (N := 4096) (arrXB m c) (rowOf b h)) f d = _
  rw [matW_row, matG_row, rowXA_row, rowXB_row, eta_row]

theorem readoutView_entry (c : Dev nD) (hc : S4096x1x64.ShapeCasts S128x32x1x64) (b : Fin 128) (h : Fin 32) (u : Fin 1) (d : Fin 64) :
    shapeCast S128x32x1x64 (readoutArr m c) hc (ix4 b h u d)
      = readout (eta4 (argEta m c) b h) (mat4 (argG m c) b h) (mat4 (argW m c) b h) (row4 (argXA m c) b h) (row4 (argXB m c) b h)
          (row4 (argXC m c) b h) d := by
  refine (shapeCast_Nab_nmab_apply (readoutArr m c) hc (rowOf b h) b h rfl u d).trans ?_
  show readout (eta3 (N := 4096) (arrEta m c) (rowOf b h)) (mat3 (N := 4096) (arrG m c) (rowOf b h)) (mat3 (N := 4096) (arrW m c) (rowOf b h))
      (row3 (N := 4096) (arrXA m c) (rowOf b h)) (row3 (N := 4096) (arrXB m c) (rowOf b h)) (row3 (N := 4096) (arrXC m c) (rowOf b h)) d = _
  rw [matW_row, matG_row, rowXA_row, rowXB_row, rowXC_row, eta_row]

theorem gradView_eq (c : Dev nD) (hc : S4096x64x64.ShapeCasts S128x32x64x64) :
    shapeCast S128x32x64x64 (gradArr m c) hc = gradAll (argW m c) (argG m c) (argXA m c) (argXB m c) :=
  funext fun i => (congrArg (shapeCast S128x32x64x64 (gradArr m c) hc) (eq_ix4 i)).trans (gradView_entry m c hc (i 0) (i 1) (i 2) (i 3))

theorem weightView_eq (c : Dev nD) (hc : S4096x64x64.ShapeCasts S128x32x64x64) :
    shapeCast S128x32x64x64 (weightArr m c) hc = weightAll (argW m c) (argG m c) (argXA m c) (argXB m c) (argEta m c) :=
  funext fun i => (congrArg (shapeCast S128x32x64x64 (weightArr m c) hc) (eq_ix4 i)).trans (weightView_entry m c hc (i 0) (i 1) (i 2) (i 3))

theorem readoutView_eq (c : Dev nD) (hc : S4096x1x64.ShapeCasts S128x32x1x64) :
    shapeCast S128x32x1x64 (readoutArr m c) hc = readoutAll (argW m c) (argG m c) (argXA m c) (argXB m c) (argXC m c) (argEta m c) :=
  funext fun i => (congrArg (shapeCast S128x32x1x64 (readoutArr m c) hc) (eq_ix4 i)).trans (readoutView_entry m c hc (i 0) (i 1) (i 2) (i 3))

/-! ## The three results after the lines that follow the region -/

theorem resO_eq (c : Dev nD) :
    Pipeline.afterTail₀ cfgs (dats m) 0 (V0 m) [hostOps1] c main_v7
      = readoutAll (argW m c) (argG m c) (argXA m c) (argXB m c) (argXC m c) (argEta m c) := by
  have e : Pipeline.withArrays (cfgs 0).spec c (V0 m c) (fun w => (dats m 0 c).arrAt w (cfgs 0).N) (Proc.devRef .tc main_v6_0)
      = readoutArr m c :=
    (Pipeline.withArrays_arr spec0 launch0.win.arr_inj c _ _ 6).trans (finalO m c)
  unfold Pipeline.afterTail₀
  show StableHlo.after hostOps1 _ (Proc.devRef .tc main_v7) = _
  after_results
  show shapeCast S128x32x1x64 (Pipeline.withArrays (cfgs 0).spec c (V0 m c) (fun w => (dats m 0 c).arrAt w (cfgs 0).N)
      (Proc.devRef .tc main_v6_0)) shapeCasts_S4096x1x64_S128x32x1x64 = _
  rw [e]
  exact readoutView_eq m c _

theorem resW_eq (c : Dev nD) :
    Pipeline.afterTail₀ cfgs (dats m) 0 (V0 m) [hostOps1] c main_v8
      = weightAll (argW m c) (argG m c) (argXA m c) (argXB m c) (argEta m c) := by
  have e : Pipeline.withArrays (cfgs 0).spec c (V0 m c) (fun w => (dats m 0 c).arrAt w (cfgs 0).N) (Proc.devRef .tc main_v6_1)
      = weightArr m c :=
    (Pipeline.withArrays_arr spec0 launch0.win.arr_inj c _ _ 7).trans (finalW m c)
  unfold Pipeline.afterTail₀
  show StableHlo.after hostOps1 _ (Proc.devRef .tc main_v8) = _
  after_results
  show shapeCast S128x32x64x64 (Pipeline.withArrays (cfgs 0).spec c (V0 m c) (fun w => (dats m 0 c).arrAt w (cfgs 0).N)
      (Proc.devRef .tc main_v6_1)) shapeCasts_S4096x64x64_S128x32x64x64 = _
  rw [e]
  exact weightView_eq m c _

theorem resG_eq (c : Dev nD) :
    Pipeline.afterTail₀ cfgs (dats m) 0 (V0 m) [hostOps1] c main_v9
      = gradAll (argW m c) (argG m c) (argXA m c) (argXB m c) := by
  have e : Pipeline.withArrays (cfgs 0).spec c (V0 m c) (fun w => (dats m 0 c).arrAt w (cfgs 0).N) (Proc.devRef .tc main_v6_2)
      = gradArr m c :=
    (Pipeline.withArrays_arr spec0 launch0.win.arr_inj c _ _ 8).trans (finalG m c)
  unfold Pipeline.afterTail₀
  show StableHlo.after hostOps1 _ (Proc.devRef .tc main_v9) = _
  after_results
  show shapeCast S128x32x64x64 (Pipeline.withArrays (cfgs 0).spec c (V0 m c) (fun w => (dats m 0 c).arrAt w (cfgs 0).N)
      (Proc.devRef .tc main_v6_2)) shapeCasts_S4096x64x64_S128x32x64x64 = _
  rw [e]
  exact gradView_eq m c _

/-! ## The run -/

/-- Every weakly fair execution of the kernel program terminates with the readout, the updated weights and the
    accumulated gradient of every head in its three results, and its arguments as launched. -/
theorem run : θ_run defs (onTc (τ := τ) (main (F := Ideal))) ⟨m, fun _ => 0, ρ⟩ fun r => ∀ c : Dev nD,
      r.2.mem ((c.tc : Thread nD τ).loc main_v7) = readoutAll (argW m c) (argG m c) (argXA m c) (argXB m c) (argXC m c) (argEta m c)
      ∧ r.2.mem ((c.tc : Thread nD τ).loc main_v8) = weightAll (argW m c) (argG m c) (argXA m c) (argXB m c) (argEta m c)
      ∧ r.2.mem ((c.tc : Thread nD τ).loc main_v9) = gradAll (argW m c) (argG m c) (argXA m c) (argXB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (resO_eq m c),
      ((h c).2 main_v8 (Pipeline.mem_restRefs_of main_v8 (by decide) (by decide))).trans (resW_eq m c),
      ((h c).2 main_v9 (Pipeline.mem_restRefs_of main_v9 (by decide) (by decide))).trans (resG_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Arrays

end
-- ==== Proof.lean ====
/-
  One test-time-training step on the fast weights of 4096 heads: a Pallas kernel against its jnp reference, over
  the extended reals.

  For each head `(b, h)`, with weights `W`, accumulated gradient `G`, rows `xa`, `xb`, `xc` and step size `η`:
      z  = xb · W − xa,      G' = G + xbᵀ z,      W' = W − η · G',      o = xc · W'.
  The reference computes this with batch and head as two leading axes: two row-times-matrix contractions over
  64 positions, and the outer product as a contraction over the chunk axis, which has one position. The kernel
  views batch × head as one axis of 4096 rows (row `32·b + h`), walks it in 32 blocks of 128 heads, and in each
  block forms the same two products (its casts to bf16 are the identity at the ideal values, its accumulators
  zero) and the outer product by two broadcasts and a pointwise product; it then views the three results
  [128, 32, …] again. Entry by entry the two programs build the SAME expression of the same entries of the
  arguments — same operations, same grouping — so the results agree on all extended reals; the precondition
  (finite inputs) is never used. The ideal pass rewrote nothing, so the kernel's idealization is its own text.

  `Cert.FastWeight` states the step; `Cert.ReferenceIdeal.Step` reads the reference's stages as it;
  `Cert.KernelIdeal.Body` reads the kernel's three stored values as it on a block; `Cert.KernelIdeal.Arrays`
  carries blocks to arrays and arrays through the views around the region.
-/
import proofs.«130262_j35210141892673_1_alg».proof.Defs
import proofs.«130262_j35210141892673_1_alg».proof.Proof.Gen.Kernel
import proofs.«130262_j35210141892673_1_alg».proof.Proof.Gen.Kernel.Skeleton
import proofs.«130262_j35210141892673_1_alg».proof.Proof.Gen.Kernel.Launch
import proofs.«130262_j35210141892673_1_alg».proof.Proof.Gen.Kernel.Points
import proofs.«130262_j35210141892673_1_alg».proof.Proof.Gen.Kernel.Frame
import proofs.«130262_j35210141892673_1_alg».proof.Proof.Gen.KernelIdeal
import proofs.«130262_j35210141892673_1_alg».proof.Proof.Gen.KernelIdeal.Skeleton
import proofs.«130262_j35210141892673_1_alg».proof.Proof.Gen.KernelIdeal.Launch
import proofs.«130262_j35210141892673_1_alg».proof.Proof.Gen.KernelIdeal.Points
import proofs.«130262_j35210141892673_1_alg».proof.Proof.Gen.KernelIdeal.Frame
import proofs.«130262_j35210141892673_1_alg».proof.Proof.Gen.ReferenceIdeal
import proofs.«130262_j35210141892673_1_alg».proof.Proof.Gen.ReferenceIdeal.Run
import proofs.«130262_j35210141892673_1_alg».proof.Proof.Gen.ReferenceIdeal.Read
import proofs.«130262_j35210141892673_1_alg».proof.Proof.Gen.Pre_finite_inputs
import proofs.«130262_j35210141892673_1_alg».proof.Proof.ReferenceStep
import proofs.«130262_j35210141892673_1_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and keeps its arguments: its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the readout, the updated weights and the accumulated gradient of every head, as the
    same three functions of arguments that agree. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_) (Cert.ReferenceIdeal.Value.run (F := Ideal) m' ρ')
  obtain ⟨h7, h6, h3, hargs⟩ := h c
  obtain ⟨a0, a1, a2, a3, a4, a5⟩ := hagree c
  refine ⟨h7.trans ?_, h6.trans ?_, h3.trans ?_, hargs⟩
  · refine ((Cert.ReferenceIdeal.Read.val_main_v7_eq _ _ _ _ _ _).trans (Cert.ReferenceIdeal.Step.readout_eq _ _ _ _ _ _)).trans ?_
    rw [a0, a1, a2, a3, a4, a5]
  · refine ((Cert.ReferenceIdeal.Read.val_main_v6_eq _ _ _ _ _).trans (Cert.ReferenceIdeal.Step.weight_eq _ _ _ _ _)).trans ?_
    rw [a0, a1, a2, a3, a5]
  · refine ((Cert.ReferenceIdeal.Read.val_main_v3_eq _ _ _ _).trans (Cert.ReferenceIdeal.Step.grad_eq _ _ _ _)).trans ?_
    rw [a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
